-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x256 : Shape := ⟨3, ![256, 128, 256]⟩
abbrev S128x256x1024 : Shape := ⟨3, ![128, 256, 1024]⟩
abbrev S1x1024 : Shape := ⟨2, ![1, 1024]⟩
abbrev S_ : Shape := ⟨0, ![]⟩

class Facts : Prop where
  bcast_S_S256x128x256 : S_.BroadcastsInDim S256x128x256 (![] : Fin 0 → Fin S256x128x256.rank)
  reducesTo_S256x128x256_S_d0_1_2 : S256x128x256.ReducesTo [0, 1, 2] S_
  h_S_ : 0 < S_.numel
  bcast_S_S128x256x1024 : S_.BroadcastsInDim S128x256x1024 (![] : Fin 0 → Fin S128x256x1024.rank)
  reducesTo_S128x256x1024_S_d0_1_2 : S128x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S256x128x256 .f32) (main_arg1 : FVec F S128x256x1024 .f32) (main_arg2 : FVec F S1x1024 .f32) (main_arg3 : FVec F S1x1024 .f32) : IVec S_ 1 :=
  let main_v0 : FVec F S256x128x256 .f32 := Host.absf main_arg0
  let main_cst : FVec F S_ .f32 := constant S_ .f32 0x7F800000#32
  let main_v1 : FVec F S256x128x256 .f32 := broadcastInDim S256x128x256 ![] bcast_S_S256x128x256 main_cst
  let main_v2 : IVec S256x128x256 1 := cmpf .olt main_v0 main_v1
  let main_c : IVec S_ 1 := constantI S_ 1 1#1
  let main_v3 : IVec S_ 1 := (fun x v => Host.reduce IntOp.andi x v reducesTo_S256x128x256_S_d0_1_2 h_S_) main_v2 main_c
  let main_v4 : FVec F S128x256x1024 .f32 := Host.absf main_arg1
  let main_cst_0 : FVec F S_ .f32 := constant S_ .f32 0x7F800000#32
  let main_v5 : FVec F S128x256x1024 .f32 := broadcastInDim S128x256x1024 ![] bcast_S_S128x256x1024 main_cst_0
  let main_v6 : IVec S128x256x1024 1 := cmpf .olt main_v4 main_v5
  let main_c_1 : IVec S_ 1 := constantI S_ 1 1#1
  let main_v7 : IVec S_ 1 := (fun x v => Host.reduce IntOp.andi x v reducesTo_S128x256x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S256x128x256 : Shape := ⟨3, ![256, 128, 256]⟩
abbrev S128x256x1024 : Shape := ⟨3, ![128, 256, 1024]⟩
abbrev S1x1024 : Shape := ⟨2, ![1, 1024]⟩
abbrev S256x32x4x256 : Shape := ⟨4, ![256, 32, 4, 256]⟩
abbrev S256x1024 : Shape := ⟨2, ![256, 1024]⟩
abbrev S256x1x4x256 : Shape := ⟨4, ![256, 1, 4, 256]⟩
abbrev S4x256x1024 : Shape := ⟨3, ![4, 256, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S256x128x256, .f32⟩
  | .hbm, ⟨1, _⟩ => ⟨S128x256x1024, .f32⟩
  | .hbm, ⟨2, _⟩ => ⟨S1x1024, .f32⟩
  | .hbm, ⟨3, _⟩ => ⟨S1x1024, .f32⟩
  | .hbm, ⟨4, _⟩ => ⟨S256x32x4x256, .f32⟩
  | .hbm, ⟨5, _⟩ => ⟨S256x1024, .f32⟩
  | .local _ .vmem, ⟨0, _⟩ => ⟨S256x1x4x256, .f32⟩
  | .local _ .vmem, ⟨1, _⟩ => ⟨S256x1x4x256, .f32⟩
  | .local _ .vmem, ⟨2, _⟩ => ⟨S4x256x1024, .f32⟩
  | .local _ .vmem, ⟨3, _⟩ => ⟨S4x256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S256x128x256_S256x32x4x256 : S256x128x256.ShapeCasts S256x32x4x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1x4x256_S256x1x4x256_0_0_0_0 : ∀ a, (![0, 0, 0, 0] : Fin 4 → Nat) a + S256x1x4x256.size a ≤ S256x1x4x256.size a
  h_S256x1x4x256 : 0 < S256x1x4x256.numel
  shapeCasts_S256x1x4x256_S256x1x4x256 : S256x1x4x256.ShapeCasts S256x1x4x256
  bitsLt_bf16_f32 : FTy.bits .bf16 < FTy.bits .f32
  shapeCasts_S256x1x4x256_S256x1024 : S256x1x4x256.ShapeCasts S256x1024
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S1024x1024 : S4x256x1024.ShapeCasts S1024x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x4x256.size a ≤ S256x32x4x256.size a
  hwx0_0 : ∀ i : grid0.Coords, EltTy.bits .f32 = 32 ∨ (Rect.block (s := S256x32x4x256) S256x1x4x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1024.size a ≤ S128x256x1024.size a
  hwx0_1 : ∀ i : grid0.Coords, EltTy.bits .f32 = 32 ∨ (Rect.block (s := S128x256x1024) S4x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1x4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x256 : Shape := ⟨3, ![256, 128, 256]⟩
abbrev S128x256x1024 : Shape := ⟨3, ![128, 256, 1024]⟩
abbrev S1x1024 : Shape := ⟨2, ![1, 1024]⟩
abbrev S128x256x256 : Shape := ⟨3, ![128, 256, 256]⟩
abbrev S256x1024 : Shape := ⟨2, ![256, 1024]⟩
abbrev S1x256x256 : Shape := ⟨3, ![1, 256, 256]⟩
abbrev S1x256x128 : Shape := ⟨3, ![1, 256, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S256x128x256, .f32⟩
  | .hbm, ⟨1, _⟩ => ⟨S128x256x1024, .f32⟩
  | .hbm, ⟨2, _⟩ => ⟨S1x1024, .f32⟩
  | .hbm, ⟨3, _⟩ => ⟨S1x1024, .f32⟩
  | .hbm, ⟨4, _⟩ => ⟨S128x256x256, .f32⟩
  | .hbm, ⟨5, _⟩ => ⟨S256x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v13 : BitVec 1 := Scalar.cmpi .eq arg1 c127_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x128x256_S128x256x256_1_0_2 : S256x128x256.Transposes [1, 0, 2] S128x256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S128x256x256.size a
  hwx0_0 : ∀ i : grid0.Coords, EltTy.bits .f32 = 32 ∨ (Rect.block (s := S128x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S128x256x1024.size a
  hwx0_1 : ∀ i : grid0.Coords, EltTy.bits .f32 = 32 ∨ (Rect.block (s := S128x256x1024) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x1024.size a
  hwx0_4 : ∀ i : grid0.Coords, EltTy.bits .f32 = 32 ∨ (Rect.block (s := S256x1024) S256x128.size (cc0_transform_4 i) (hinb0_4 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Spec.lean ====
/-
  The function both programs compute, stated once over the argument arrays.

  With x : [256 rows, 128 tokens, 256 features], w : [128 tokens, 256 features, 1024 columns] and the two row vectors
  bias, scale : [1, 1024], the result at (row p, column q) is

      ( Σ_t Σ_d x[p, t, d] · w[t, d, q]  +  bias[0, q] ) · scale[0, q]

  on the extended reals.  One program runs over the tokens four at a time and keeps the whole result resident; the other
  runs over the tokens one at a time, column tile by column tile.  Both orders give this double sum, because addition on
  the extended reals is associative and commutative; no finiteness is needed.
-/
import Idealize.ShloMosaic.PureOps.Ideal
import Idealize.ShloMosaic.Lib.ValueIdx
import proofs.«100773_g2000206349046742_pallaspilot1_57_13_alg».proof.Proof.LibBlockSum

noncomputable section

open scoped BigOperators

namespace Cert.Debed

open Idealize.ShloMosaic Idealize.ShloMosaic.ValueIdx

/-- The activations: rows × tokens × features. -/
abbrev SX : Shape := ⟨3, ![256, 128, 256]⟩
/-- The per-token weights: tokens × features × columns. -/
abbrev SW : Shape := ⟨3, ![128, 256, 1024]⟩
/-- A row vector over the columns (bias, scale). -/
abbrev SV : Shape := ⟨2, ![1, 1024]⟩
/-- The result: rows × columns. -/
abbrev SY : Shape := ⟨2, ![256, 1024]⟩

/-- Token `t`'s contribution to entry (p, q): the inner product over the features. -/
def tokDot (x : SX.Idx → EReal) (w : SW.Idx → EReal) (p : Fin 256) (q : Fin 1024) (t : Fin 128) : EReal :=
  ∑ d : Fin 256, x (ix3 p t d) * w (ix3 t d q)

/-- The result array: all tokens' contributions, plus the bias, times the scale. -/
def out (x : SX.Idx → EReal) (w : SW.Idx → EReal) (b s : SV.Idx → EReal) : SY.Idx → EReal := fun i =>
  (∑ t : Fin 128, tokDot x w (i 0) (i 1) t + b (ix2 0 (i 1))) * s (ix2 0 (i 1))

/-- The sum over the 128 tokens taken in 32 groups of four consecutive tokens. -/
theorem sum_tokens_by_four (g : Fin 128 → EReal) :
    ∑ t : Fin 128, g t = ∑ k : Fin 32, ∑ u : Fin 4, g ⟨k.val * 4 + u.val, by omega⟩ :=
  Cert.BlockSum.sum_blocks 32 4 rfl g

/-- A sum over 1024 = 4 · 256 flattened (token-in-group, feature) positions as the double sum. -/
theorem sum_flat_by_feature (h : Fin 1024 → EReal) :
    ∑ j : Fin 1024, h j = ∑ u : Fin 4, ∑ d : Fin 256, h ⟨u.val * 256 + d.val, by omega⟩ :=
  Cert.BlockSum.sum_blocks 4 256 rfl h

/-- A running total over the tokens: zero, plus the first `n` contributions, plus one more, is the first `n + 1`. -/
theorem range_total (P : ℕ → EReal) (n : ℕ) :
    (0 + ∑ s ∈ Finset.range n, P s) + P n = ∑ s ∈ Finset.range (n + 1), P s := by
  rw [zero_add, Finset.sum_range_succ]

end Cert.Debed

end
-- ==== Proof.KernelPay.lean ====
/-
  The three values the kernel's body stores, read at one entry (p, q) of the resident [256, 1024] block, on the
  extended reals: the zero block; the block plus the product of the staged activations and weights, a sum over the
  four tokens of the group and the 256 features; and the block plus the bias row, times the scale row.
-/
import proofs.«100773_g2000206349046742_pallaspilot1_57_13_alg».proof.Proof.Gen.KernelIdeal.Skeleton
import proofs.«100773_g2000206349046742_pallaspilot1_57_13_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.RefValue

open Cert.KernelIdeal Cert.KernelIdeal.Gen Idealize.ShloMosaic Idealize.ShloMosaic.ValueIdx

/-- The block the first grid point stores before accumulating is zero everywhere. -/
theorem pay1_apply (i : S256x1024.Idx) : (k0_pay1 (F := Ideal)) i = 0 := by
  unfold k0_pay1
  rw [broadcast_apply]
  exact Ideal.ofBits_zero_f32

/-- The last grid point's epilogue at (p, q): the accumulated entry plus the bias of column q, times the scale of
    column q. -/
theorem pay3_apply (y : Vec Ideal S256x1024 .f32) (b s : Vec Ideal S1x1024 .f32) (p : Fin 256) (q : Fin 1024) :
    k0_pay3 y b s (ix2 p q) = (y (ix2 p q) + b (ix2 0 q)) * s (ix2 0 q) := by
  unfold k0_pay3
  rw [mulf_apply, addf_apply, shapeCast_self,
    broadcastTo_apply b _ (ix2 p q) (ix2 0 q) (fun a => by match a with | ⟨0, _⟩ => rfl | ⟨1, _⟩ => rfl),
    broadcastTo_apply s _ (ix2 p q) (ix2 0 q) (fun a => by match a with | ⟨0, _⟩ => rfl | ⟨1, _⟩ => rfl)]

/-! ## The product: rows of the left factor against columns of the right one -/

/-- The left factor's row coordinate at a contraction position is the result's row. -/
theorem lhs_mm_0 (i : S256x1024.Idx) (k : dot_S256x1024_S1024x1024_S256x1024_1_0_0_1_n_n.contr.Idx) :
    (dot_S256x1024_S1024x1024_S256x1024_1_0_0_1_n_n.lhsIdx i k 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- The left factor's column coordinate is the contraction position. -/
theorem lhs_mm_1 (i : S256x1024.Idx) (k : dot_S256x1024_S1024x1024_S256x1024_1_0_0_1_n_n.contr.Idx) :
    (dot_S256x1024_S1024x1024_S256x1024_1_0_0_1_n_n.lhsIdx i k 1).val = (k ⟨0, by decide⟩).val :=
  dot_S256x1024_S1024x1024_S256x1024_1_0_0_1_n_n.lhsIdx_val_of_single rfl i k

/-- The right factor's row coordinate is the contraction position. -/
theorem rhs_mm_0 (i : S256x1024.Idx) (k : dot_S256x1024_S1024x1024_S256x1024_1_0_0_1_n_n.contr.Idx) :
    (dot_S256x1024_S1024x1024_S256x1024_1_0_0_1_n_n.rhsIdx i k 0).val = (k ⟨0, by decide⟩).val :=
  dot_S256x1024_S1024x1024_S256x1024_1_0_0_1_n_n.rhsIdx_val_of_single rfl i k

/-- The right factor's column coordinate at a contraction position is the result's column. -/
theorem rhs_mm_1 (i : S256x1024.Idx) (k : dot_S256x1024_S1024x1024_S256x1024_1_0_0_1_n_n.contr.Idx) :
    (dot_S256x1024_S1024x1024_S256x1024_1_0_0_1_n_n.rhsIdx i k 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The [256, 1024] × [1024, 1024] product into a zero accumulator at (p, q): row p of the left factor against column
    q of the right one. -/
theorem matmul_zero_apply (lhs : FVec Ideal S256x1024 .bf16) (rhs : FVec Ideal S1024x1024 .bf16) (p : Fin 256)
    (q : Fin 1024) :
    matmul (F := Ideal) dot_S256x1024_S1024x1024_S256x1024_1_0_0_1_n_n none lhs rhs
        (constant (F := Ideal) S256x1024 .f32 0x00000000#32) (ix2 p q)
      = ∑ j : Fin 1024, lhs (ix2 p j) * rhs (ix2 j q) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q)
      ((contrEquiv1 dot_S256x1024_S1024x1024_S256x1024_1_0_0_1_n_n 1024 rfl rfl).symm k) = ix2 p k :=
    funext fun a => Fin.ext (by
      match a with
      | ⟨0, _⟩ => exact lhs_mm_0 _ _
      | ⟨1, _⟩ => exact (lhs_mm_1 _ _).trans hk)
  have er : dot_S256x1024_S1024x1024_S256x1024_1_0_0_1_n_n.rhsIdx (ix2 p q)
      ((contrEquiv1 dot_S256x1024_S1024x1024_S256x1024_1_0_0_1_n_n 1024 rfl rfl).symm k) = ix2 k q :=
    funext fun a => Fin.ext (by
      match a with
      | ⟨0, _⟩ => exact (rhs_mm_0 _ _).trans hk
      | ⟨1, _⟩ => exact rhs_mm_1 _ _)
  rw [el, er]

/-! ## The two factors: the staged blocks flattened -/

/-- The activations' block [256, 1, 4, 256] flattened to [256, 1024]: column u·256 + d is token u of the group,
    feature d. -/
theorem lhs_flat_apply (x0 : FVec Ideal S256x1x4x256 .bf16) (p : Fin 256) (u : Fin 4) (d : Fin 256) :
    shapeCast S256x1024 x0 shapeCasts_S256x1x4x256_S256x1024 (ix2 p ⟨u.val * 256 + d.val, by omega⟩)
      = x0 (ix4 p 0 u d) :=
  shapeCast_apply x0 _ _ (ix4 p 0 u d) (by
    rw [Shape.rowMajor_val_four, Shape.rowMajor_val_two]
    show ((p.val * 1 + 0) * 4 + u.val) * 256 + d.val = p.val * 1024 + (u.val * 256 + d.val)
    omega)

/-- The weights' block [4, 256, 1024] flattened to [1024, 1024]: row u·256 + d is token u of the group, feature d. -/
theorem rhs_flat_apply (x1 : FVec Ideal S4x256x1024 .bf16) (u : Fin 4) (d : Fin 256) (q : Fin 1024) :
    shapeCast S1024x1024 x1 shapeCasts_S4x256x1024_S1024x1024 (ix2 ⟨u.val * 256 + d.val, by omega⟩ q)
      = x1 (ix3 u d q) :=
  shapeCast_apply x1 _ _ (ix3 u d q) (by
    rw [Shape.rowMajor_val_three, Shape.rowMajor_val_two]
    show (u.val * 256 + d.val) * 1024 + q.val = (u.val * 256 + d.val) * 1024 + q.val
    rfl)

/-- Every grid point's accumulation at (p, q): the block's entry plus, over the four tokens of the group and the 256
    features, the staged activation times the staged weight. -/
theorem pay2_apply (acc : Vec Ideal S256x1024 .f32) (x0 : Vec Ideal S256x1x4x256 .f32) (x1 : Vec Ideal S4x256x1024 .f32)
    (p : Fin 256) (q : Fin 1024) :
    k0_pay2 acc x0 x1 (ix2 p q)
      = acc (ix2 p q) + ∑ u : Fin 4, ∑ d : Fin 256, x0 (ix4 p 0 u d) * x1 (ix3 u d q) := by
  unfold k0_pay2
  rw [addf_apply, shapeCast_self, shapeCast_self, matmul_zero_apply, Cert.Debed.sum_flat_by_feature]
  refine congrArg (acc (ix2 p q) + ·) ?_
  refine Finset.sum_congr rfl fun u _ => Finset.sum_congr rfl fun d _ => ?_
  rw [lhs_flat_apply, rhs_flat_apply]
  rfl

end Cert.KernelIdeal.RefValue

end
-- ==== Proof.KernelBlocks.lean ====
/-
  What the staged blocks hold at grid point t, at explicit coordinates, in terms of the argument arrays: the
  activations' block is tokens 4t … 4t + 3 of every row, the weights' block is the same four tokens' matrices, and the
  bias and scale blocks are the whole row vectors.
-/
import proofs.«100773_g2000206349046742_pallaspilot1_57_13_alg».proof.Proof.Gen.KernelIdeal.Value
import Idealize.ShloMosaic.Lib.ValueIdx
import Idealize.ShloMosaic.Lib.Pipeline.Value
import Idealize.ShloMosaic.Lib.StableHlo.Run

noncomputable section

namespace Cert.KernelIdeal.RefValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The printed index maps over the grid: the activations' block moves along the token-group axis, the weights' block
    along the token axis, the two row vectors stay. -/
theorem idx_facts : ∀ t : Fin cfg0.N,
    win0_0.index t (0 : Fin 4) = 0 ∧ win0_0.index t (1 : Fin 4) = t.val ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The activations as the region finds them: the argument regrouped as [256, 32, 4, 256]. -/
theorem V_main_v0 : (V m c main_v0 : S256x32x4x256.Idx → EReal)
    = shapeCast S256x32x4x256 (m ((c : Thread nD τ).loc main_arg0)) shapeCasts_S256x128x256_S256x32x4x256 := by
  dsimp only [Gen.V, Gen.hostOps0]
  after_results
  rfl

/-- The regrouped activations at (p, k, u, d) are the argument at (p, 4k + u, d). -/
theorem V_main_v0_apply (p : Fin 256) (k : Fin 32) (u : Fin 4) (d : Fin 256) :
    (V m c main_v0 : S256x32x4x256.Idx → EReal) (ix4 p k u d)
      = m ((c : Thread nD τ).loc main_arg0) (ix3 p ⟨k.val * 4 + u.val, by omega⟩ d) := by
  rw [V_main_v0]
  exact shapeCast_apply _ _ _ (ix3 p ⟨k.val * 4 + u.val, by omega⟩ d) (by
    rw [Shape.rowMajor_val_four, Shape.rowMajor_val_three]
    show (p.val * 128 + (k.val * 4 + u.val)) * 256 + d.val = ((p.val * 32 + k.val) * 4 + u.val) * 256 + d.val
    omega)

/-- The grid has 32 points. -/
theorem point_lt (t : Fin cfg0.N) : t.val < 32 := lt_of_lt_of_eq t.isLt (show cfg0.N = 32 from N_0)

/-- The activations' block at point t, at (p, 0, u, d): row p, token 4t + u, feature d of the argument. -/
theorem xblk_apply (t : Fin cfg0.N) (p : Fin 256) (u : Fin 4) (d : Fin 256) :
    (iblk m c 0 t : S256x1x4x256.Idx → EReal) (ix4 p 0 u d)
      = m ((c : Thread nD τ).loc main_arg0) (ix3 p ⟨t.val * 4 + u.val, by have := point_lt t; omega⟩ d) := by
  obtain ⟨e0, e1, e2, e3, -⟩ := idx_facts t
  have ht : t.val < 32 := point_lt t
  rw [← V_main_v0_apply m c p ⟨t.val, ht⟩ u d]
  show V m c main_v0 (((cfg0.win 0).blk t).view.emb (ix4 p 0 u d)) = V m c main_v0 (ix4 p ⟨t.val, ht⟩ u d)
  refine congrArg _ (funext fun a => Fin.ext ?_)
  match a with
  | ⟨0, _⟩ => show win0_0.index t (0 : Fin 4) * 256 + 1 * p.val = p.val; omega
  | ⟨1, _⟩ => show win0_0.index t (1 : Fin 4) * 1 + 1 * 0 = t.val; omega
  | ⟨2, _⟩ => show win0_0.index t (2 : Fin 4) * 4 + 1 * u.val = u.val; omega
  | ⟨3, _⟩ => show win0_0.index t (3 : Fin 4) * 256 + 1 * d.val = d.val; omega

/-- The weights' block at point t, at (u, d, q): token 4t + u, feature d, column q of the argument. -/
theorem wblk_apply (t : Fin cfg0.N) (u : Fin 4) (d : Fin 256) (q : Fin 1024) :
    (iblk m c 1 t : S4x256x1024.Idx → EReal) (ix3 u d q)
      = m ((c : Thread nD τ).loc main_arg1) (ix3 ⟨t.val * 4 + u.val, by have := point_lt t; omega⟩ d q) := by
  obtain ⟨-, -, -, -, e0, e1, e2, -⟩ := idx_facts t
  have ht : t.val < 32 := point_lt t
  rw [← V_main_arg1 m c]
  show V m c main_arg1 (((cfg0.win 1).blk t).view.emb (ix3 u d q)) = V m c main_arg1 _
  refine congrArg _ (funext fun a => Fin.ext ?_)
  match a with
  | ⟨0, _⟩ => show win0_1.index t (0 : Fin 3) * 4 + 1 * u.val = t.val * 4 + u.val; omega
  | ⟨1, _⟩ => show win0_1.index t (1 : Fin 3) * 256 + 1 * d.val = d.val; omega
  | ⟨2, _⟩ => show win0_1.index t (2 : Fin 3) * 1024 + 1 * q.val = q.val; omega

/-- The bias block at any point is the bias row. -/
theorem bblk_apply (t : Fin cfg0.N) (q : Fin 1024) :
    (iblk m c 2 t : S1x1024.Idx → EReal) (ix2 0 q) = m ((c : Thread nD τ).loc main_arg2) (ix2 0 q) := by
  obtain ⟨-, -, -, -, -, -, -, e0, e1, -⟩ := idx_facts t
  rw [← V_main_arg2 m c]
  show V m c main_arg2 (((cfg0.win 2).blk t).view.emb (ix2 0 q)) = V m c main_arg2 _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- The scale block at any point is the scale row. -/
theorem sblk_apply (t : Fin cfg0.N) (q : Fin 1024) :
    (iblk m c 3 t : S1x1024.Idx → EReal) (ix2 0 q) = m ((c : Thread nD τ).loc main_arg3) (ix2 0 q) := by
  obtain ⟨-, -, -, -, -, -, -, -, -, e0, e1⟩ := idx_facts t
  rw [← V_main_arg3 m c]
  show V m c main_arg3 (((cfg0.win 3).blk t).view.emb (ix2 0 q)) = V m c main_arg3 _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

end Cert.KernelIdeal.RefValue

end
-- ==== Proof.KernelValue.lean ====
/-
  The array the kernel leaves: at (p, q) the fold over the 32 grid points of the resident block is the sum over all 128
  tokens of the token's inner product, four tokens per point, and the last point adds the bias and multiplies by the
  scale. Only associativity and commutativity of addition on the extended reals are used.
-/
import proofs.«100773_g2000206349046742_pallaspilot1_57_13_alg».proof.Proof.KernelPay
import proofs.«100773_g2000206349046742_pallaspilot1_57_13_alg».proof.Proof.KernelBlocks

noncomputable section

open scoped BigOperators

namespace Cert.KernelIdeal.RefValue

open Cert.KernelIdeal Cert.KernelIdeal.Gen Idealize.ShloMosaic Idealize.ShloMosaic.TcCoe Idealize.SL.Sem
open Idealize.ShloMosaic.ValueIdx

/-- Grid point n's addend at (p, q): the inner products of tokens 4n … 4n + 3 (nothing past the grid). -/
def grp (x : Cert.Debed.SX.Idx → EReal) (w : Cert.Debed.SW.Idx → EReal) (p : Fin 256) (q : Fin 1024) (n : ℕ) : EReal :=
  if h : n < 32 then ∑ u : Fin 4, Cert.Debed.tokDot x w p q ⟨n * 4 + u.val, by omega⟩ else 0

/-- The 32 points' addends are all 128 tokens' inner products. -/
theorem sum_grp (x : Cert.Debed.SX.Idx → EReal) (w : Cert.Debed.SW.Idx → EReal) (p : Fin 256) (q : Fin 1024) :
    ∑ s ∈ Finset.range 32, grp x w p q s = ∑ t : Fin 128, Cert.Debed.tokDot x w p q t := by
  rw [Cert.Debed.sum_tokens_by_four, ← Fin.sum_univ_eq_sum_range (fun s => grp x w p q s) 32]
  refine Finset.sum_congr rfl fun k _ => ?_
  unfold grp
  rw [dif_pos k.isLt]

variable (m : (ℓ : Loc nD τ sig) → Buf (Elt Ideal) ℓ) (c : Dev nD)

/-- One point's accumulation at (p, q): what the point before left plus the point's addend. -/
theorem point_apply (n : ℕ) (h : n < cfg0.N) (acc : Vec Ideal S256x1024 .f32) (p : Fin 256) (q : Fin 1024) :
    k0_pay2 acc (iblk m c 0 ⟨n, h⟩) (iblk m c 1 ⟨n, h⟩) (ix2 p q)
      = acc (ix2 p q) + grp (m ((c : Thread nD τ).loc main_arg0)) (m ((c : Thread nD τ).loc main_arg1)) p q n := by
  have hn : n < 32 := point_lt ⟨n, h⟩
  refine (pay2_apply acc (iblk m c 0 ⟨n, h⟩) (iblk m c 1 ⟨n, h⟩) p q).trans ?_
  refine congrArg (acc (ix2 p q) + ·) ?_
  unfold grp
  rw [dif_pos hn]
  refine Finset.sum_congr rfl fun u _ => ?_
  unfold Cert.Debed.tokDot
  refine Finset.sum_congr rfl fun d _ => ?_
  rw [xblk_apply m c ⟨n, h⟩ p u d, wblk_apply m c ⟨n, h⟩ u d q]

/-- The last point at (p, q): what the point before left plus the point's addend, plus the bias, times the scale. -/
theorem last_apply (n : ℕ) (h : n < cfg0.N) (acc : Vec Ideal S256x1024 .f32) (p : Fin 256) (q : Fin 1024) :
    k0_pay3 (k0_pay2 acc (iblk m c 0 ⟨n, h⟩) (iblk m c 1 ⟨n, h⟩)) (iblk m c 2 ⟨n, h⟩) (iblk m c 3 ⟨n, h⟩) (ix2 p q)
      = (acc (ix2 p q) + grp (m ((c : Thread nD τ).loc main_arg0)) (m ((c : Thread nD τ).loc main_arg1)) p q n
          + (m ((c : Thread nD τ).loc main_arg2)) (ix2 0 q)) * (m ((c : Thread nD τ).loc main_arg3)) (ix2 0 q) := by
  refine (pay3_apply (k0_pay2 acc (iblk m c 0 ⟨n, h⟩) (iblk m c 1 ⟨n, h⟩)) (iblk m c 2 ⟨n, h⟩) (iblk m c 3 ⟨n, h⟩) p q).trans ?_
  rw [point_apply m c n h acc p q, bblk_apply m c ⟨n, h⟩ q, sblk_apply m c ⟨n, h⟩ q]

/-- At a point that is neither the first nor the last the step is the accumulation. -/
theorem step_mid (n : ℕ) (h : n < cfg0.N) (h0 : ¬n % 32 = 0) (h1 : ¬n % 32 = 31) (acc : Vec Ideal S256x1024 .f32) :
    Value.step4 m c n h acc = k0_pay2 acc (iblk m c 0 ⟨n, h⟩) (iblk m c 1 ⟨n, h⟩) := by
  unfold Value.step4
  rw [if_pos ⟨h0, h1⟩]

/-- At the last point the step is the accumulation followed by the epilogue. -/
theorem step_last (n : ℕ) (h : n < cfg0.N) (h1 : n % 32 = 31) (acc : Vec Ideal S256x1024 .f32) :
    Value.step4 m c n h acc
      = k0_pay3 (k0_pay2 acc (iblk m c 0 ⟨n, h⟩) (iblk m c 1 ⟨n, h⟩)) (iblk m c 2 ⟨n, h⟩) (iblk m c 3 ⟨n, h⟩) := by
  unfold Value.step4
  rw [if_neg (fun hh => hh.2 h1), if_pos ⟨by omega, h1⟩]

/-- The resident block after point j ≤ 30, at (p, q): the addends of points 0 … j. -/
theorem fold_apply (j : ℕ) (hj : j ≤ 30) (h : 0 + j < cfg0.N) (p : Fin 256) (q : Fin 1024) :
    Pipeline.accAt (Value.reset4 m c) (Value.step4 m c) 0 j h (ix2 p q)
      = 0 + ∑ s ∈ Finset.range (j + 1), grp (m ((c : Thread nD τ).loc main_arg0)) (m ((c : Thread nD τ).loc main_arg1)) p q s := by
  have key := Pipeline.accAt_add_apply (ι := S256x1024.Idx) (β := EReal) (Value.reset4 m c) (Value.step4 m c)
    (fun _ => 0) (fun n i => grp (m ((c : Thread nD τ).loc main_arg0)) (m ((c : Thread nD τ).loc main_arg1)) (i 0) (i 1) n) 0 30
    (fun h0 i => by
      obtain ⟨p, q, rfl⟩ : ∃ (p : Fin 256) (q : Fin 1024), i = ix2 p q := ⟨i 0, i 1, eq_ix2 i⟩
      unfold Value.reset4
      refine (point_apply m c 0 h0 (k0_pay1 (F := Ideal)) p q).trans ?_
      rw [pay1_apply])
    (fun n hn acc i h1 h2 => by
      obtain ⟨p, q, rfl⟩ : ∃ (p : Fin 256) (q : Fin 1024), i = ix2 p q := ⟨i 0, i 1, eq_ix2 i⟩
      rw [step_mid m c n hn (by omega) (by omega) acc]
      exact point_apply m c n hn acc p q)
    j hj h (ix2 p q)
  rw [key]
  refine congrArg (0 + ·) (Finset.sum_congr rfl fun s _ => ?_)
  rw [Nat.zero_add]

/-- THE KERNEL'S RESULT: the array the run leaves is the specification's function of the four arguments. -/
theorem G4_eq (m : (ℓ : Loc nD τ sig) → Buf (Elt Ideal) ℓ) (c : Dev nD) :
    Cert.KernelIdeal.Value.G4 (F := Ideal) m c
      = Cert.Debed.out (m ((c : Thread nD τ).loc main_arg0)) (m ((c : Thread nD τ).loc main_arg1))
          (m ((c : Thread nD τ).loc main_arg2)) (m ((c : Thread nD τ).loc main_arg3)) := by
  funext i
  obtain ⟨p, q, rfl⟩ : ∃ (p : Fin 256) (q : Fin 1024), i = ix2 p q := ⟨i 0, i 1, eq_ix2 i⟩
  have hp : p.val < 256 := p.isLt
  have hq : q.val < 1024 := q.isLt
  have hN : cfg0.N = 32 := N_0
  have hr : Value.run4Of (ix2 p q) = 0 := by
    show 1 * (p.val / 256 - 0) + 1 * (q.val / 1024 - 0) = 0
    omega
  have hl : Value.loc4Of (ix2 p q) = ix2 p q := by
    funext a; apply Fin.ext
    match a with
    | ⟨0, _⟩ => show p.val % 256 = p.val; omega
    | ⟨1, _⟩ => show q.val % 1024 = q.val; omega
  have e : ∀ (b j : ℕ) (h : b + j < cfg0.N) (b' j' : ℕ) (h' : b' + j' < cfg0.N), b = b' → j = j' →
      Pipeline.accAt (Value.reset4 m c) (Value.step4 m c) b j h
        = Pipeline.accAt (Value.reset4 m c) (Value.step4 m c) b' j' h' := by
    intro b j h b' j' h' hb hj; subst hb; subst hj; rfl
  have h31 : 0 + (30 + 1) < cfg0.N := by rw [hN]; decide
  unfold Value.G4
  rw [dif_pos (by rw [hr, hN]; decide), hl, e _ _ _ 0 (30 + 1) h31 (by rw [hr]) rfl, Pipeline.accAt_succ]
  rw [step_last m c (0 + (30 + 1)) h31 (by decide)]
  refine (last_apply m c (0 + (30 + 1)) h31 _ p q).trans ?_
  rw [fold_apply m c 30 (le_refl _) _ p q]
  show (0 + ∑ s ∈ Finset.range 31, grp (m ((c : Thread nD τ).loc main_arg0)) (m ((c : Thread nD τ).loc main_arg1)) p q s
        + grp (m ((c : Thread nD τ).loc main_arg0)) (m ((c : Thread nD τ).loc main_arg1)) p q 31 + (m ((c : Thread nD τ).loc main_arg2)) (ix2 0 q)) * (m ((c : Thread nD τ).loc main_arg3)) (ix2 0 q)
      = (∑ t : Fin 128, Cert.Debed.tokDot (m ((c : Thread nD τ).loc main_arg0)) (m ((c : Thread nD τ).loc main_arg1)) p q t + (m ((c : Thread nD τ).loc main_arg2)) (ix2 0 q)) * (m ((c : Thread nD τ).loc main_arg3)) (ix2 0 q)
  rw [Cert.Debed.range_total, sum_grp]

end Cert.KernelIdeal.RefValue

end
-- ==== Proof.RefPay.lean ====
/-
  The reference's three stored values read at an index, on the extended reals.

  The body keeps a [256,128] accumulator for one tile of 128 columns.  It stores zeros into it at the first token, adds
  one token's product  x_t · w_t  (a [256,256] by [256,128] matrix product, contracted over the 256 features) at every
  token, and at the last token stores  (accumulator + bias) · scale  into the result tile.
-/
import proofs.«100773_g2000206349046742_pallaspilot1_57_13_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The operand indices of the matrix product -/

theorem lhs_tok_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl

theorem lhs_tok_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q

theorem rhs_tok_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q

theorem rhs_tok_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- The matrix product into a zero accumulator, at entry (p, q): the inner product of row p and column q. -/
theorem tok_matmul_apply (a : FVec Ideal S256x256 .f32) (b : FVec Ideal S256x128 .f32) (p : Fin 256) (q : Fin 128) :
    matmul (F := Ideal) (φ₁ := .f32) (φ₂ := .f32) dot_S256x256_S256x128_S256x128_1_0_0_1_n_n none a b (constant (F := Ideal) S256x128 .f32 0x00000000#32) (ix2 p q)
      = ∑ d : Fin 256, a (ix2 p d) * b (ix2 d q) := by
  simp only [matmul]
  rw [Ideal.matmul_constant_zero_apply,
    ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p q)
      ((contrEquiv1 dot_S256x256_S256x128_S256x128_1_0_0_1_n_n 256 rfl rfl).symm k) = ix2 p k :=
    funext fun a => Fin.ext (by
      match a with
      | ⟨0, _⟩ => exact lhs_tok_0 _ _
      | ⟨1, _⟩ => exact (lhs_tok_1 _ _).trans hk)
  have er : dot_S256x256_S256x128_S256x128_1_0_0_1_n_n.rhsIdx (ix2 p q)
      ((contrEquiv1 dot_S256x256_S256x128_S256x128_1_0_0_1_n_n 256 rfl rfl).symm k) = ix2 k q :=
    funext fun a => Fin.ext (by
      match a with
      | ⟨0, _⟩ => exact (rhs_tok_0 _ _).trans hk
      | ⟨1, _⟩ => exact rhs_tok_1 _ _)
  rw [el, er]

/-! ## The three stored values -/

/-- The value stored at the first token is zero everywhere. -/
theorem zeros_apply (y : S256x128.Idx) : k0_pay1 (F := Ideal) y = 0 := by
  unfold k0_pay1
  rw [shapeCast_self]
  exact Ideal.ofBits_zero_f32

/-- One token's step at entry (p, q): the accumulator there plus the token's inner product. -/
theorem step_apply (acc : Vec Ideal S256x128 .f32) (x0 : Vec Ideal S1x256x256 .f32) (x1 : Vec Ideal S1x256x128 .f32)
    (p : Fin 256) (q : Fin 128) :
    k0_pay2 (F := Ideal) acc x0 x1 (ix2 p q) = acc (ix2 p q) + ∑ d : Fin 256, x0 (ix3 0 p d) * x1 (ix3 0 d q) := by
  unfold k0_pay2
  rw [shapeCast_self]
  show acc (ix2 p q) + matmul (F := Ideal) (φ₁ := .f32) (φ₂ := .f32) dot_S256x256_S256x128_S256x128_1_0_0_1_n_n none _ _ _ (ix2 p q) = _
  rw [tok_matmul_apply]
  refine congrArg (acc (ix2 p q) + ·) (Finset.sum_congr rfl fun d _ => ?_)
  rw [shapeCast_apply x0 shapeCasts_S1x256x256_S256x256 (ix2 p d) (ix3 0 p d)
      (by rw [Shape.rowMajor_val_three, Shape.rowMajor_val_two]; show ((0 : ℕ) * 256 + p.val) * 256 + d.val = p.val * 256 + d.val; omega),
    shapeCast_apply x1 shapeCasts_S1x256x128_S256x128 (ix2 d q) (ix3 0 d q)
      (by rw [Shape.rowMajor_val_three, Shape.rowMajor_val_two]; show ((0 : ℕ) * 256 + d.val) * 128 + q.val = d.val * 128 + q.val; omega)]

/-- The last token's result at entry (p, q): the accumulator plus the tile's bias, times its scale. -/
theorem finish_apply (acc : Vec Ideal S256x128 .f32) (b s : Vec Ideal S1x128 .f32) (p : Fin 256) (q : Fin 128) :
    k0_pay3 (F := Ideal) acc b s (ix2 p q) = (acc (ix2 p q) + b (ix2 0 q)) * s (ix2 0 q) := by
  unfold k0_pay3
  show (acc (ix2 p q) + broadcastTo S256x128 b broadcasts_S1x128_S256x128 (ix2 p q))
      * broadcastTo S256x128 s broadcasts_S1x128_S256x128 (ix2 p q) = _
  rw [broadcastTo_apply b broadcasts_S1x128_S256x128 (ix2 p q) (ix2 0 q)
      (fun a => by match a with | ⟨0, _⟩ => rfl | ⟨1, _⟩ => rfl),
    broadcastTo_apply s broadcasts_S1x128_S256x128 (ix2 p q) (ix2 0 q)
      (fun a => by match a with | ⟨0, _⟩ => rfl | ⟨1, _⟩ => rfl)]

end Cert.ReferenceIdeal.RefValue

end
-- ==== Proof.RefPieces.lean ====
/-
  What each of the reference body's three control cases leaves behind, as terms over the values it loaded.

  The accumulator for a column tile lives in a scratch buffer carried from one token to the next.  At a tile's first
  token the body stores zeros and then the first product over them; at a middle token it stores the old accumulator plus
  the token's product; at the last token it does the same and then stores (accumulator + bias) · scale into the result
  tile.  Each lemma reads the stores of one case back through the buffer they were written to.
-/
import proofs.«100773_g2000206349046742_pallaspilot1_57_13_alg».proof.Proof.Gen.ReferenceIdeal.Frame
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First token of a tile: the accumulator ends at the token's product added to zeros. -/
theorem acc_first_eq (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : cond0_0 i) (hc1 : ¬cond0_1 i)
    (x0 : Vec F S1x256x256 .f32) (x1 : Vec F S1x256x128 .f32) (x2 : Vec F S1x128 .f32) (x3 : Vec F S1x128 .f32) :
    sout0_A_0 c i arg2 harg2 arg3 harg3 arg4 harg4 arg5 harg5 arg6 harg6 arg7 harg7 hc0 hc1 x0 x1 x2 x3 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  try sl_unfold_words
  rw [View.canon_cons_unit_zero (S := S256x128) hz2, View.readCov_unit_zero (S := S256x128) _ hz2]
  simp only [View.readAt_eq_ld, harg2.read_unread, harg3.read_unread, harg4.read_unread, harg5.read_unread, harg6.read_unread, harg7.read_unread, View.ld_unit_zero (S := S1x128) hz2, View.ld_unit_zero (S := S256x128) hz2, View.ld_unit_zero (S := S1x256x256) hz3, View.ld_unit_zero (S := S1x256x128) hz3, View.readCov_unit_zero (S := S256x128) _ hz2, shapeCast_self]

/-- A middle token: the accumulator ends at what the token before left plus this token's product. -/
theorem acc_middle_eq (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : ¬cond0_1 i)
    (x0 : Vec F S1x256x256 .f32) (x1 : Vec F S1x256x128 .f32) (x2 : Vec F S1x128 .f32) (x3 : Vec F S1x128 .f32) (xs0 : Vec F S256x128 .f32) :
    sout0_B_0 c i arg2 harg2 arg3 harg3 arg4 harg4 arg5 harg5 arg6 harg6 arg7 harg7 hc0 hc1 x0 x1 x2 x3 xs0 = k0_pay2 xs0 x0 x1 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  rw [View.canon_unit_zero hz2]
  simp only [View.readAt_eq_ld, harg2.read_unread, harg3.read_unread, harg4.read_unread, harg5.read_unread, harg6.read_unread, harg7.read_unread, View.ld_unit_zero (S := S1x128) hz2, View.ld_unit_zero (S := S256x128) hz2, View.ld_unit_zero (S := S1x256x256) hz3, View.ld_unit_zero (S := S1x256x128) hz3, View.readCov_unit_zero (S := S256x128) _ hz2, shapeCast_self]

/-- The last token: the accumulator steps as at a middle token … -/
theorem acc_last_eq (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i)
    (x0 : Vec F S1x256x256 .f32) (x1 : Vec F S1x256x128 .f32) (x2 : Vec F S1x128 .f32) (x3 : Vec F S1x128 .f32) (xs0 : Vec F S256x128 .f32) :
    sout0_C_0 c i arg2 harg2 arg3 harg3 arg4 harg4 arg5 harg5 arg6 harg6 arg7 harg7 hc0 hc1 x0 x1 x2 x3 xs0 = k0_pay2 xs0 x0 x1 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  rw [View.canon_unit_zero hz2]
  simp only [View.readAt_eq_ld, harg2.read_unread, harg3.read_unread, harg4.read_unread, harg5.read_unread, harg6.read_unread, harg7.read_unread, View.ld_unit_zero (S := S1x128) hz2, View.ld_unit_zero (S := S256x128) hz2, View.ld_unit_zero (S := S1x256x256) hz3, View.ld_unit_zero (S := S1x256x128) hz3, View.readCov_unit_zero (S := S256x128) _ hz2, shapeCast_self]

/-- … and the result tile receives (that accumulator + bias) · scale. -/
theorem tile_last_eq (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i)
    (x0 : Vec F S1x256x256 .f32) (x1 : Vec F S1x256x128 .f32) (x2 : Vec F S1x128 .f32) (x3 : Vec F S1x128 .f32) (xs0 : Vec F S256x128 .f32) :
    out0_C_4 c i arg2 harg2 arg3 harg3 arg4 harg4 arg5 harg5 arg6 harg6 arg7 harg7 hc0 hc1 x0 x1 x2 x3 xs0 = k0_pay3 (k0_pay2 xs0 x0 x1) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_words
  rw [View.canon_unit_zero hz2]
  simp only [View.readAt_eq_ld, harg2.read_unread, harg3.read_unread, harg4.read_unread, harg5.read_unread, harg6.read_unread, harg7.read_unread, View.ld_unit_zero (S := S1x128) hz2, View.ld_unit_zero (S := S256x128) hz2, View.ld_unit_zero (S := S1x256x256) hz3, View.ld_unit_zero (S := S1x256x128) hz3, View.readCov_unit_zero (S := S256x128) _ hz2, shapeCast_self]

end Cert.ReferenceIdeal.RefValue

end
-- ==== Proof.RefBlocks.lean ====
/-
  What the reference's input blocks hold, entry by entry, in terms of the argument arrays.

  The grid point t stands for column tile j = t / 128 and token u = t % 128.  The activations reach the kernel
  transposed to tokens × rows × features, so the block of token u at (row p, feature d) is x[p, u, d]; the weight block
  at (feature d, local column q) is w[u, d, 128·j + q]; the bias and scale blocks at local column q are their entries
  at column 128·j + q.
-/
import proofs.«100773_g2000206349046742_pallaspilot1_57_13_alg».proof.Proof.Gen.ReferenceIdeal.Value
import Idealize.ShloMosaic.Lib.ValueIdx
import Idealize.ShloMosaic.Lib.Pipeline.Value
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- Each window's block index at grid point t: the token on the token axes, the column tile on the column axes. -/
theorem block_index : ∀ t : Fin cfg0.N,
    win0_0.index t (0 : Fin 3) = t.val % 128 ∧ win0_0.index t (1 : Fin 3) = 0 ∧ win0_0.index t (2 : Fin 3) = 0
    ∧ win0_1.index t (0 : Fin 3) = t.val % 128 ∧ win0_1.index t (1 : Fin 3) = 0 ∧ win0_1.index t (2 : Fin 3) = t.val / 128
    ∧ win0_2.index t (0 : Fin 2) = 0 ∧ win0_2.index t (1 : Fin 2) = t.val / 128
    ∧ win0_3.index t (0 : Fin 2) = 0 ∧ win0_3.index t (1 : Fin 2) = t.val / 128
    ∧ win0_4.index t (0 : Fin 2) = 0 ∧ win0_4.index t (1 : Fin 2) = t.val / 128 :=
  (by decide +kernel : ∀ t : Fin grid0.N, _)

/-- The array the first window stages is the activations with the row and token axes exchanged. -/
theorem tokens_first (c : Dev nD) :
    (V m c main_v0 : S128x256x256.Idx → EReal)
      = transpose S128x256x256 [1, 0, 2] (m ((c : Thread nD τ).loc main_arg0)) transposes_S256x128x256_S128x256x256_1_0_2 := by
  dsimp only [Gen.V, Gen.hostOps0]
  after_results

/-- The activation block of point t at (row p, feature d) is x[p, t % 128, d]. -/
theorem xblk_apply (c : Dev nD) (t : Fin cfg0.N) (p d : Fin 256) :
    (iblk m c 0 t : Vec Ideal S1x256x256 .f32) (ix3 0 p d)
      = m ((c : Thread nD τ).loc main_arg0) (ix3 p ⟨t.val % 128, Nat.mod_lt _ (by decide)⟩ d) := by
  obtain ⟨e0, e1, e2, -⟩ := block_index t
  unfold iblk
  rw [View.read_apply]
  show V m c main_v0 (((cfg0.win 0).blk t).view.emb (ix3 0 p d)) = _
  rw [tokens_first]
  refine transpose_apply [1, 0, 2] _ transposes_S256x128x256_S128x256x256_1_0_2 _
    (ix3 p ⟨t.val % 128, Nat.mod_lt _ (by decide)⟩ d) (fun b => ?_)
  match b with
  | ⟨0, _⟩ => show t.val % 128 = win0_0.index t (0 : Fin 3) * 1 + 1 * 0; omega
  | ⟨1, _⟩ => show p.val = win0_0.index t (1 : Fin 3) * 256 + 1 * p.val; omega
  | ⟨2, _⟩ => show d.val = win0_0.index t (2 : Fin 3) * 256 + 1 * d.val; omega

/-- The weight block of point t at (feature d, local column q) is w[t % 128, d, 128·(t / 128) + q]. -/
theorem wblk_apply (c : Dev nD) (t : Fin cfg0.N) (d : Fin 256) (q : Fin 128) :
    (iblk m c 1 t : Vec Ideal S1x256x128 .f32) (ix3 0 d q)
      = m ((c : Thread nD τ).loc main_arg1) (ix3 ⟨t.val % 128, Nat.mod_lt _ (by decide)⟩ d
          ⟨128 * (t.val / 128) + q.val, by have := t.isLt; have : cfg0.N = 1024 := N_0; omega⟩) := by
  obtain ⟨-, -, -, e0, e1, e2, -⟩ := block_index t
  unfold iblk
  rw [View.read_apply]
  show V m c main_arg1 (((cfg0.win 1).blk t).view.emb (ix3 0 d q)) = _
  rw [V_main_arg1]
  refine congrArg (m ((c : Thread nD τ).loc main_arg1)) (funext fun a => Fin.ext ?_)
  match a with
  | ⟨0, _⟩ => show win0_1.index t (0 : Fin 3) * 1 + 1 * 0 = t.val % 128; omega
  | ⟨1, _⟩ => show win0_1.index t (1 : Fin 3) * 256 + 1 * d.val = d.val; omega
  | ⟨2, _⟩ => show win0_1.index t (2 : Fin 3) * 128 + 1 * q.val = 128 * (t.val / 128) + q.val; omega

/-- The bias block of point t at local column q is bias[0, 128·(t / 128) + q]. -/
theorem bblk_apply (c : Dev nD) (t : Fin cfg0.N) (q : Fin 128) :
    (iblk m c 2 t : Vec Ideal S1x128 .f32) (ix2 0 q)
      = m ((c : Thread nD τ).loc main_arg2) (ix2 0
          ⟨128 * (t.val / 128) + q.val, by have := t.isLt; have : cfg0.N = 1024 := N_0; omega⟩) := by
  obtain ⟨-, -, -, -, -, -, e0, e1, -⟩ := block_index t
  unfold iblk
  rw [View.read_apply]
  show V m c main_arg2 (((cfg0.win 2).blk t).view.emb (ix2 0 q)) = _
  rw [V_main_arg2]
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 128 + 1 * q.val = 128 * (t.val / 128) + q.val; omega

/-- The scale block of point t at local column q is scale[0, 128·(t / 128) + q]. -/
theorem sblk_apply (c : Dev nD) (t : Fin cfg0.N) (q : Fin 128) :
    (iblk m c 3 t : Vec Ideal S1x128 .f32) (ix2 0 q)
      = m ((c : Thread nD τ).loc main_arg3) (ix2 0
          ⟨128 * (t.val / 128) + q.val, by have := t.isLt; have : cfg0.N = 1024 := N_0; omega⟩) := by
  obtain ⟨-, -, -, -, -, -, -, -, e0, e1, -⟩ := block_index t
  unfold iblk
  rw [View.read_apply]
  show V m c main_arg3 (((cfg0.win 3).blk t).view.emb (ix2 0 q)) = _
  rw [V_main_arg3]
  refine congrArg (m ((c : Thread nD τ).loc main_arg3)) (funext fun a => Fin.ext ?_)
  match a with
  | ⟨0, _⟩ => show win0_3.index t (0 : Fin 2) * 1 + 1 * 0 = 0; omega
  | ⟨1, _⟩ => show win0_3.index t (1 : Fin 2) * 128 + 1 * q.val = 128 * (t.val / 128) + q.val; omega

end Cert.ReferenceIdeal.RefValue

end
-- ==== Proof.RefValue.lean ====
/-
  The reference's result array, read as the function of the argument arrays stated in the specification.

  For the column tile j the accumulator starts, at the tile's first token, as zero plus that token's product, and every
  later token adds its own product; so before the last token it holds zero plus the products of tokens 0 … 126, and the
  last token writes (that + the product of token 127 + bias) · scale into the result tile.  Written through the input
  blocks this is the double sum over tokens and features of x[p, u, d] · w[u, d, 128·j + q], plus the bias, times the
  scale: the specification's value at (p, 128·j + q).  The eight tiles cover the result array.
-/
import proofs.«100773_g2000206349046742_pallaspilot1_57_13_alg».proof.Proof.Spec
import proofs.«100773_g2000206349046742_pallaspilot1_57_13_alg».proof.Proof.RefPay
import proofs.«100773_g2000206349046742_pallaspilot1_57_13_alg».proof.Proof.RefPieces
import proofs.«100773_g2000206349046742_pallaspilot1_57_13_alg».proof.Proof.RefBlocks

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The four input blocks of a grid point, as vectors of their literal shapes. -/
abbrev xblk (c : Dev nD) (t : Fin cfg0.N) : Vec Ideal S1x256x256 .f32 := iblk m c 0 t
abbrev wblk (c : Dev nD) (t : Fin cfg0.N) : Vec Ideal S1x256x128 .f32 := iblk m c 1 t
abbrev bblk (c : Dev nD) (t : Fin cfg0.N) : Vec Ideal S1x128 .f32 := iblk m c 2 t
abbrev sblk (c : Dev nD) (t : Fin cfg0.N) : Vec Ideal S1x128 .f32 := iblk m c 3 t

/-- The product of the token of grid point n, at tile entry y (zero past the grid's end, where it is never used). -/
def addend (c : Dev nD) (n : ℕ) (y : S256x128.Idx) : EReal :=
  if h : n < cfg0.N then
    ∑ d : Fin 256, xblk m c ⟨n, h⟩ (ix3 0 (y 0) d) * wblk m c ⟨n, h⟩ (ix3 0 d (y 1))
  else 0

/-- At a tile's first token the accumulator is left at zero plus that token's product. -/
theorem acc_first (c : Dev nD) (n : ℕ) (h : n < cfg0.N) (hn : n % 128 = 0) (acc : Vec Ideal S256x128 .f32)
    (y : S256x128.Idx) : Value.scAt0_0 m c n h acc y = 0 + addend m c n y := by
  obtain ⟨p, q, rfl⟩ : ∃ (p : Fin 256) (q : Fin 128), y = ix2 p q := ⟨y 0, y 1, eq_ix2 y⟩
  unfold Value.scAt0_0
  rw [dif_pos hn, dif_neg (by omega), acc_first_eq, step_apply, zeros_apply]
  unfold addend
  rw [dif_pos h]

/-- At a token that is neither first nor last the accumulator grows by the token's product. -/
theorem acc_middle (c : Dev nD) (n : ℕ) (h : n < cfg0.N) (h0 : ¬n % 128 = 0) (h1 : ¬n % 128 = 127)
    (acc : Vec Ideal S256x128 .f32) (y : S256x128.Idx) :
    Value.scAt0_0 m c n h acc y = acc y + addend m c n y := by
  obtain ⟨p, q, rfl⟩ : ∃ (p : Fin 256) (q : Fin 128), y = ix2 p q := ⟨y 0, y 1, eq_ix2 y⟩
  unfold Value.scAt0_0
  rw [dif_neg h0, dif_neg h1, acc_middle_eq, step_apply]
  unfold addend
  rw [dif_pos h]

/-- Before the last token of tile j the accumulator is zero plus the products of the tile's tokens 0 … 126. -/
theorem acc_before_last (c : Dev nD) (j : ℕ) (h : 128 * j + 126 < cfg0.N) (y : S256x128.Idx) :
    Pipeline.accAt (fun n h => Value.scAt0_0 m c n h (VS0_0.read (Elt Ideal) VS0_0.junk)) (Value.scAt0_0 m c) (128 * j) 126 h y
      = 0 + ∑ s ∈ Finset.range 127, addend m c (128 * j + s) y :=
  Pipeline.accAt_add_apply (fun n h => Value.scAt0_0 m c n h (VS0_0.read (Elt Ideal) VS0_0.junk)) (Value.scAt0_0 m c)
    (fun _ => 0) (addend m c) (128 * j) 126
    (fun hb i => acc_first m c (128 * j) hb (by omega) _ i)
    (fun n hn acc i hlo hhi => acc_middle m c n hn (by omega) (by omega) acc i)
    126 le_rfl h y

/-- The product of the token of grid point 128·j + u at entry (p, q) of tile j, through the input blocks:
    token u's inner product for result entry (p, 128·j + q). -/
theorem addend_eq (c : Dev nD) (j u : ℕ) (hj : j < 8) (hu : u < 128) (p : Fin 256) (q : Fin 128) :
    addend m c (128 * j + u) (ix2 p q)
      = Cert.Debed.tokDot (m ((c : Thread nD τ).loc main_arg0)) (m ((c : Thread nD τ).loc main_arg1)) p
          ⟨128 * j + q.val, by have := q.isLt; omega⟩ ⟨u, hu⟩ := by
  have hN : cfg0.N = 1024 := N_0
  have hlt : 128 * j + u < cfg0.N := by omega
  unfold addend Cert.Debed.tokDot
  rw [dif_pos hlt]
  refine Finset.sum_congr rfl fun d _ => ?_
  refine congrArg₂ (· * ·) ((xblk_apply m c ⟨128 * j + u, hlt⟩ p d).trans (congrArg _ ?_))
    ((wblk_apply m c ⟨128 * j + u, hlt⟩ d q).trans (congrArg _ ?_))
  · funext a
    apply Fin.ext
    match a with
    | ⟨0, _⟩ => rfl
    | ⟨1, _⟩ => show (128 * j + u) % 128 = u; omega
    | ⟨2, _⟩ => rfl
  · funext a
    apply Fin.ext
    match a with
    | ⟨0, _⟩ => show (128 * j + u) % 128 = u; omega
    | ⟨1, _⟩ => rfl
    | ⟨2, _⟩ => show 128 * ((128 * j + u) / 128) + q.val = 128 * j + q.val; omega

/-- At a grid point, the addend is the product of that point's own blocks. -/
theorem addend_at (c : Dev nD) (t : Fin cfg0.N) (p : Fin 256) (q : Fin 128) :
    addend m c t.val (ix2 p q) = ∑ d : Fin 256, xblk m c t (ix3 0 p d) * wblk m c t (ix3 0 d q) := by
  unfold addend
  rw [dif_pos t.isLt]

/-- The last token's stored value at a tile entry, over the accumulator it found. -/
theorem last_entry (acc : Vec Ideal S256x128 .f32) (x0 : Vec Ideal S1x256x256 .f32) (x1 : Vec Ideal S1x256x128 .f32)
    (b s : Vec Ideal S1x128 .f32) (z : S256x128.Idx) (p : Fin 256) (q : Fin 128) (hz : z = ix2 p q) :
    k0_pay3 (F := Ideal) (k0_pay2 (F := Ideal) acc x0 x1) b s z
      = ((acc (ix2 p q) + ∑ d : Fin 256, x0 (ix3 0 p d) * x1 (ix3 0 d q)) + b (ix2 0 q)) * s (ix2 0 q) := by
  subst hz
  rw [finish_apply, step_apply]

/-- Two folds over the same run are equal when their starting points and lengths are. -/
theorem accAt_congr {α : Type} {N : ℕ} (a : (n : ℕ) → n < N → α) (g : (n : ℕ) → n < N → α → α)
    (b j : ℕ) (h : b + j < N) (b' j' : ℕ) (h' : b' + j' < N) (hb : b = b') (hj : j = j') :
    Pipeline.accAt a g b j h = Pipeline.accAt a g b' j' h' := by
  subst hb; subst hj; rfl

/-- Zero plus the first 127 tokens' contributions, plus the 128th, plus the bias, times the scale, is the specified
    value at (p, 128·j + q) — when the contributions are the tokens' inner products. -/
theorem tile_entry (x : Cert.Debed.SX.Idx → EReal) (w : Cert.Debed.SW.Idx → EReal) (b s : Cert.Debed.SV.Idx → EReal)
    (j : ℕ) (hj : j < 8) (p : Fin 256) (q : Fin 128) (A : ℕ → EReal)
    (hA : ∀ (u : ℕ) (hu : u < 128), A u = Cert.Debed.tokDot x w p ⟨128 * j + q.val, by have := q.isLt; omega⟩ ⟨u, hu⟩) :
    (((0 + ∑ u ∈ Finset.range 127, A u) + A 127) + b (ix2 0 ⟨128 * j + q.val, by have := q.isLt; omega⟩))
        * s (ix2 0 ⟨128 * j + q.val, by have := q.isLt; omega⟩)
      = Cert.Debed.out x w b s (ix2 p ⟨128 * j + q.val, by have := q.isLt; omega⟩) := by
  rw [Cert.Debed.range_total, ← Fin.sum_univ_eq_sum_range]
  unfold Cert.Debed.out
  refine congrArg₂ (· * ·) (congrArg₂ (· + ·) (Finset.sum_congr rfl fun t _ => ?_) rfl) rfl
  exact hA t.val t.isLt

/-- The function the result array ends holding. -/
abbrev result (c : Dev nD) : Buf (Elt Ideal) ((c : Thread nD τ).loc main_v1) :=
  Cert.Debed.out (m ((c : Thread nD τ).loc main_arg0)) (m ((c : Thread nD τ).loc main_arg1))
    (m ((c : Thread nD τ).loc main_arg2)) (m ((c : Thread nD τ).loc main_arg3))

/-- What the last token of a tile writes back is that tile of the specified result. -/
theorem flushed4_eq (c : Dev nD) (t : Fin cfg0.N) (hf : (cfg0.win 4).flush t = true) :
    (dats m 0 c).flushed 4 t = ((cfg0.win 4).blk t).view.read (Elt Ideal) (result m c) := by
  have hm : t.val % 128 = 127 := (flush0_4 t).mp hf
  have hN : cfg0.N = 1024 := N_0
  have ht := t.isLt
  have hj : t.val / 128 < 8 := by omega
  rw [Value.flushed4_C m c t (by omega) hm, tile_last_eq]
  funext y
  obtain ⟨-, -, -, -, -, -, -, -, -, -, e0, e1⟩ := block_index t
  have hy0 : (y 0).val < 256 := (y 0).isLt
  have hy1 : (y 1).val < 128 := (y 1).isLt
  have hx : (cfg0.win 4).xinj (grid0.coords t) y = ix2 (⟨(y 0).val, hy0⟩ : Fin 256) (⟨(y 1).val, hy1⟩ : Fin 128) :=
    funext fun a => Fin.ext (by match a with | ⟨0, _⟩ => rfl | ⟨1, _⟩ => rfl)
  have he : ((cfg0.win 4).blk t).view.emb y
      = ix2 (⟨(y 0).val, hy0⟩ : Fin 256) (⟨128 * (t.val / 128) + (y 1).val, by omega⟩ : Fin 1024) :=
    funext fun a => Fin.ext (by
      match a with
      | ⟨0, _⟩ => show win0_4.index t (0 : Fin 2) * 256 + 1 * (y 0).val = (y 0).val; omega
      | ⟨1, _⟩ => show win0_4.index t (1 : Fin 2) * 128 + 1 * (y 1).val = 128 * (t.val / 128) + (y 1).val; omega)
  have hacc : ∀ (hlt : t.val - 1 < cfg0.N), (outsAt0 m c (t.val - 1) hlt).2 (ix2 (⟨(y 0).val, hy0⟩ : Fin 256) (⟨(y 1).val, hy1⟩ : Fin 128))
      = 0 + ∑ u ∈ Finset.range 127, addend m c (128 * (t.val / 128) + u) (ix2 (⟨(y 0).val, hy0⟩ : Fin 256) (⟨(y 1).val, hy1⟩ : Fin 128)) := fun hlt => by
    refine (congrFun (Value.soutsAt0_0_eq m c ⟨t.val - 1, hlt⟩) _).trans ?_
    refine (congrFun (accAt_congr _ _ _ _ _ (128 * (t.val / 128)) 126 (by omega) ?_ ?_) _).trans
      (acc_before_last m c (t.val / 128) _ _)
    · show 128 * ((t.val - 1) / 128) = 128 * (t.val / 128); omega
    · show (t.val - 1) % 128 = 126; omega
  have h127 : 128 * (t.val / 128) + 127 = t.val := by omega
  show k0_pay3 (F := Ideal) (k0_pay2 (F := Ideal) _ _ _) _ _ ((cfg0.win 4).xinj (grid0.coords t) y)
    = result m c (((cfg0.win 4).blk t).view.emb y)
  refine (last_entry _ _ _ _ _ _ ⟨(y 0).val, hy0⟩ ⟨(y 1).val, hy1⟩ hx).trans ?_
  rw [he, hacc]
  refine Eq.trans ?_ (tile_entry _ _ _ _ (t.val / 128) hj ⟨(y 0).val, hy0⟩ ⟨(y 1).val, hy1⟩
    (fun u => addend m c (128 * (t.val / 128) + u) (ix2 (⟨(y 0).val, hy0⟩ : Fin 256) (⟨(y 1).val, hy1⟩ : Fin 128)))
    (fun u hu => addend_eq m c (t.val / 128) u hj hu _ _))
  refine congrArg₂ (· * ·) (congrArg₂ (· + ·) (congrArg₂ (· + ·) rfl ?_) ?_) ?_
  · show _ = addend m c (128 * (t.val / 128) + 127) _
    rw [h127, addend_at]
  · exact bblk_apply m c t ⟨(y 1).val, hy1⟩
  · exact sblk_apply m c t ⟨(y 1).val, hy1⟩

/-- An index of the result array is in point t's tile iff each coordinate is in the tile's range on its axis. -/
theorem mem_tile (t : Fin cfg0.N) (i : S256x1024.Idx) :
    i ∈ ((cfg0.win 4).blk t).view.set ↔ ∀ a : Fin 2, win0_4.index t a * S256x128.size a ≤ (i a).val
      ∧ (i a).val < win0_4.index t a * S256x128.size a + S256x128.size a := by
  show i ∈ ((View.whole main_v1).slice (win0_4.rect t)).set ↔ _
  rw [View.set_slice_whole, Rect.mem_set_unit]
  exact Iff.rfl

/-- Every entry of the result lies in the tile some last token writes back: column q in tile q / 128. -/
theorem covered (i : S256x1024.Idx) :
    ∃ t : Fin cfg0.N, (cfg0.win 4).flush t = true ∧ i ∈ ((cfg0.win 4).blk t).view.set := by
  have hN : cfg0.N = 1024 := N_0
  have h0 : (i 0).val < 256 := (i 0).isLt
  have h1 : (i 1).val < 1024 := (i 1).isLt
  have hlt : 128 * ((i 1).val / 128) + 127 < cfg0.N := by omega
  obtain ⟨-, -, -, -, -, -, -, -, -, -, e0, e1⟩ := block_index ⟨128 * ((i 1).val / 128) + 127, hlt⟩
  have e1' : win0_4.index ⟨128 * ((i 1).val / 128) + 127, hlt⟩ (1 : Fin 2) = (128 * ((i 1).val / 128) + 127) / 128 := e1
  refine ⟨⟨128 * ((i 1).val / 128) + 127, hlt⟩, (flush0_4 _).mpr (by show (128 * ((i 1).val / 128) + 127) % 128 = 127; omega), ?_⟩
  rw [mem_tile]
  intro a
  match a with
  | ⟨0, _⟩ =>
    show win0_4.index ⟨128 * ((i 1).val / 128) + 127, hlt⟩ (0 : Fin 2) * 256 ≤ (i 0).val
      ∧ (i 0).val < win0_4.index ⟨128 * ((i 1).val / 128) + 127, hlt⟩ (0 : Fin 2) * 256 + 256
    omega
  | ⟨1, _⟩ =>
    show win0_4.index ⟨128 * ((i 1).val / 128) + 127, hlt⟩ (1 : Fin 2) * 128 ≤ (i 1).val
      ∧ (i 1).val < win0_4.index ⟨128 * ((i 1).val / 128) + 127, hlt⟩ (1 : Fin 2) * 128 + 128
    omega

/-- The result array after the run is the specified function of the arguments. -/
theorem final4 (c : Dev nD) : (dats m 0 c).arrAt 4 cfg0.N = result m c :=
  (dats m 0 c).arrAt_eq_of_cover 4 _ (fun t hf => flushed4_eq m c t hf) (fun i => covered i)

/-- The reference's run: it terminates with the result array at the specified function, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Value.run_blocks m ρ)

end Cert.ReferenceIdeal.RefValue

end
-- ==== Proof.lean ====
/-
  The certificate: both programs compute, at (row p, column q),

      ( Σ_t Σ_d x[p, t, d] · w[t, d, q]  +  bias[0, q] ) · scale[0, q]

  on the extended reals (Proof/Spec.lean).  The kernel accumulates the whole [256,1024] result over 32 grid points of
  four tokens each, as one [256,1024] by [1024,1024] product per point (Proof/KernelValue.lean); the reference
  accumulates each tile of 128 columns over the 128 tokens, one [256,256] by [256,128] product per token
  (Proof/RefValue.lean).  The two groupings of the double sum agree because addition on the extended reals is associative
  and commutative; the inputs' finiteness is not used.  The three frames are the generated ones, and the kernel's
  idealization rewrote nothing.
-/
import proofs.«100773_g2000206349046742_pallaspilot1_57_13_alg».proof.Defs
import proofs.«100773_g2000206349046742_pallaspilot1_57_13_alg».proof.Proof.Gen.Kernel
import proofs.«100773_g2000206349046742_pallaspilot1_57_13_alg».proof.Proof.Gen.Kernel.Skeleton
import proofs.«100773_g2000206349046742_pallaspilot1_57_13_alg».proof.Proof.Gen.Kernel.Launch
import proofs.«100773_g2000206349046742_pallaspilot1_57_13_alg».proof.Proof.Gen.Kernel.Points
import proofs.«100773_g2000206349046742_pallaspilot1_57_13_alg».proof.Proof.Gen.Kernel.Frame
import proofs.«100773_g2000206349046742_pallaspilot1_57_13_alg».proof.Proof.Gen.KernelIdeal
import proofs.«100773_g2000206349046742_pallaspilot1_57_13_alg».proof.Proof.Gen.KernelIdeal.Skeleton
import proofs.«100773_g2000206349046742_pallaspilot1_57_13_alg».proof.Proof.Gen.KernelIdeal.Launch
import proofs.«100773_g2000206349046742_pallaspilot1_57_13_alg».proof.Proof.Gen.KernelIdeal.Points
import proofs.«100773_g2000206349046742_pallaspilot1_57_13_alg».proof.Proof.Gen.KernelIdeal.Frame
import proofs.«100773_g2000206349046742_pallaspilot1_57_13_alg».proof.Proof.Gen.ReferenceIdeal
import proofs.«100773_g2000206349046742_pallaspilot1_57_13_alg».proof.Proof.Gen.ReferenceIdeal.Skeleton
import proofs.«100773_g2000206349046742_pallaspilot1_57_13_alg».proof.Proof.Gen.ReferenceIdeal.Launch
import proofs.«100773_g2000206349046742_pallaspilot1_57_13_alg».proof.Proof.Gen.ReferenceIdeal.Points
import proofs.«100773_g2000206349046742_pallaspilot1_57_13_alg».proof.Proof.Gen.ReferenceIdeal.Frame
import proofs.«100773_g2000206349046742_pallaspilot1_57_13_alg».proof.Proof.Gen.Pre_finite_inputs
import proofs.«100773_g2000206349046742_pallaspilot1_57_13_alg».proof.Proof.Gen.KernelIdeal.Value
import proofs.«100773_g2000206349046742_pallaspilot1_57_13_alg».proof.Proof.Gen.ReferenceIdeal.Value
import proofs.«100773_g2000206349046742_pallaspilot1_57_13_alg».proof.Proof.KernelValue
import proofs.«100773_g2000206349046742_pallaspilot1_57_13_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ => Cert.ReferenceIdeal.Gen.frame m ρ

/-- The idealization rewrote no operation. -/
theorem preserves : Cert.preserves_Kernel_KernelIdeal := trivial

/-- Run from memories that agree on the four arguments, both idealized programs end with the result array at the
    specified function of those arguments. -/
theorem algebraic : Cert.algebraic_KernelIdeal_ReferenceIdeal := by
  intro m ρ m' ρ' _ hagree
  refine ⟨fun c => Cert.KernelIdeal.Value.G4 (F := Ideal) m c, Cert.KernelIdeal.Value.run (F := Ideal) m ρ, ?_⟩
  refine (θ_run Cert.ReferenceIdeal.defs _ _).mono (fun r h c => ⟨(h c).1.trans ?_, (h c).2⟩)
    (Cert.ReferenceIdeal.RefValue.run m' ρ')
  refine Eq.trans ?_ (Cert.KernelIdeal.RefValue.G4_eq m c).symm
  show Cert.Debed.out _ _ _ _ = Cert.Debed.out _ _ _ _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
